-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S524288 : Shape := ⟨1, ![524288]⟩
abbrev S8192x8192 : Shape := ⟨2, ![8192, 8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S524288 : S_.BroadcastsInDim S524288 (![] : Fin 0 → Fin S524288.rank)
  reducesTo_S524288_S_d0 : S524288.ReducesTo [0] S_

variable [Facts]

def fn {F : FTy → Type} [FloatOps F] (main_arg0 : FVec F S64x8192 .f32) (main_arg1 : FVec F S524288 .f32) (main_arg2 : IVec S8192x8192 32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S524288 .f32 := Host.absf main_arg1
  let main_cst_0 : FVec F S_ .f32 := constant S_ .f32 0x7F800000#32
  let main_v5 : FVec F S524288 .f32 := broadcastInDim S524288 ![] bcast_S_S524288 main_cst_0
  let main_v6 : IVec S524288 1 := cmpf .olt main_v4 main_v5
  let main_c_1 : IVec S_ 1 := constantI S_ 1 1#1
  let main_v7 : IVec S_ 1 := (fun x v => Host.reduce IntOp.andi x v reducesTo_S524288_S_d0 h_S_) main_v6 main_c_1
  let main_v8 : IVec S_ 1 := andi main_v3 main_v7
  main_v8
-- ==== Kernel.lean ====
abbrev S64x8192 : Shape := ⟨2, ![64, 8192]⟩
abbrev S524288 : Shape := ⟨1, ![524288]⟩
abbrev S8192x8192 : Shape := ⟨2, ![8192, 8192]⟩
abbrev S_ : Shape := ⟨0, ![]⟩
abbrev S8192x8192x1 : Shape := ⟨3, ![8192, 8192, 1]⟩
abbrev S1024x8192 : Shape := ⟨2, ![1024, 8192]⟩
abbrev S64x1024 : Shape := ⟨2, ![64, 1024]⟩

abbrev nBuf : Space → Nat
  | .hbm => 15
  | .vmem => 5
  | .smem => 0
  | _ => 0

abbrev bufTy : (tb : Table) → Fin (tcTables nBuf tb) → BufTy
  | .hbm, ⟨0, _⟩ => ⟨S64x8192, .f32⟩
  | .hbm, ⟨1, _⟩ => ⟨S524288, .f32⟩
  | .hbm, ⟨2, _⟩ => ⟨S8192x8192, .i32⟩
  | .hbm, ⟨3, _⟩ => ⟨S524288, .bf16⟩
  | .hbm, ⟨4, _⟩ => ⟨S_, .i32⟩
  | .hbm, ⟨5, _⟩ => ⟨S8192x8192, .i32⟩
  | .hbm, ⟨6, _⟩ => ⟨S8192x8192, .i1⟩
  | .hbm, ⟨7, _⟩ => ⟨S_, .i32⟩
  | .hbm, ⟨8, _⟩ => ⟨S8192x8192, .i32⟩
  | .hbm, ⟨9, _⟩ => ⟨S8192x8192, .i32⟩
  | .hbm, ⟨10, _⟩ => ⟨S8192x8192, .i32⟩
  | .hbm, ⟨11, _⟩ => ⟨S8192x8192x1, .i32⟩
  | .hbm, ⟨12, _⟩ => ⟨S8192x8192, .bf16⟩
  | .hbm, ⟨13, _⟩ => ⟨S64x8192, .bf16⟩
  | .hbm, ⟨14, _⟩ => ⟨S64x8192, .f32⟩
  | .local _ .vmem, ⟨0, _⟩ => ⟨S64x8192, .bf16⟩
  | .local _ .vmem, ⟨1, _⟩ => ⟨S1024x8192, .bf16⟩
  | .local _ .vmem, ⟨2, _⟩ => ⟨S1024x8192, .bf16⟩
  | .local _ .vmem, ⟨3, _⟩ => ⟨S64x1024, .f32⟩
  | .local _ .vmem, ⟨4, _⟩ => ⟨S64x1024, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  bcast_S_S8192x8192 : S_.BroadcastsInDim S8192x8192 (![] : Fin 0 → Fin S8192x8192.rank)
  bcast_S8192x8192_S8192x8192x1_0_1 : S8192x8192.BroadcastsInDim S8192x8192x1 (![0, 1] : Fin 2 → Fin S8192x8192x1.rank)
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  inb_S64x1024_S64x1024_0_0 : ∀ a, (![0, 0] : Fin 2 → Nat) a + S64x1024.size a ≤ S64x1024.size a
  h_S64x1024 : 0 < S64x1024.numel
  gather_S524288_S8192x8192x1_S8192x8192_n_0_n_n_0_2_1_wf : GatherDims.WF S524288 S8192x8192x1 S8192x8192 [] [0] [] [0] [] 2 ![1]
  dot_S64x8192_S1024x8192_S64x1024_1_1_0_0_n_n_wf : DotDims.WF S64x8192 S1024x8192 S64x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x8192.size a
  hwx0_0 : ∀ i : grid0.Coords, EltTy.bits .bf16 = 32 ∨ (Rect.block (s := S64x8192) S64x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x8192.size a ≤ S8192x8192.size a
  hwx0_1 : ∀ i : grid0.Coords, EltTy.bits .bf16 = 32 ∨ (Rect.block (s := S8192x8192) S1024x8192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x8192.size a
  hwx0_2 : ∀ i : grid0.Coords, EltTy.bits .f32 = 32 ∨ (Rect.block (s := S64x8192) S64x1024.size (cc0_transform_2 i) (hinb0_2 i)).WholeWords (EltTy.packing .f32)

variable [Facts₀]

def gather_S524288_S8192x8192x1_S8192x8192_n_0_n_n_0_2_1 : GatherDims S524288 S8192x8192x1 S8192x8192 where
  offsetDims := []
  collapsedSliceDims := [0]
  operandBatchingDims := []
  startIndicesBatchingDims := []
  startIndexMap := [0]
  indexVectorDim := 2
  sliceSizes := ![1]
  wf := gather_S524288_S8192x8192x1_S8192x8192_n_0_n_n_0_2_1_wf
def dot_S64x8192_S1024x8192_S64x1024_1_1_0_0_n_n : DotDims S64x8192 S1024x8192 S64x1024 where
  lhsContracting := [1]
  rhsContracting := [1]
  lhsNonContracting := [0]
  rhsNonContracting := [0]
  lhsBatch := []
  rhsBatch := []
  wf := dot_S64x8192_S1024x8192_S64x1024_1_1_0_0_n_n_wf

abbrev win0_0 : Pipeline.Window sig grid0 :=
  Pipeline.Window.ofSpec (Memref.whole main_v8) S64x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S64x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x8192 : Shape := ⟨2, ![64, 8192]⟩
abbrev S524288 : Shape := ⟨1, ![524288]⟩
abbrev S8192x8192 : Shape := ⟨2, ![8192, 8192]⟩
abbrev S_ : Shape := ⟨0, ![]⟩
abbrev S8192x8192x1 : Shape := ⟨3, ![8192, 8192, 1]⟩

abbrev nBuf : Space → Nat
  | .hbm => 14
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S524288, .f32⟩
  | .hbm, ⟨2, _⟩ => ⟨S8192x8192, .i32⟩
  | .hbm, ⟨3, _⟩ => ⟨S_, .i32⟩
  | .hbm, ⟨4, _⟩ => ⟨S8192x8192, .i32⟩
  | .hbm, ⟨5, _⟩ => ⟨S8192x8192, .i1⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i32⟩
  | .hbm, ⟨10, _⟩ => ⟨S8192x8192x1, .i32⟩
  | .hbm, ⟨11, _⟩ => ⟨S8192x8192, .f32⟩
  | .hbm, ⟨12, _⟩ => ⟨S8192x8192, .f32⟩
  | .hbm, ⟨13, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  bcast_S8192x8192_S8192x8192x1_0_1 : S8192x8192.BroadcastsInDim S8192x8192x1 (![0, 1] : Fin 2 → Fin S8192x8192x1.rank)
  transposes_S8192x8192_S8192x8192_1_0 : S8192x8192.Transposes [1, 0] S8192x8192
  gather_S524288_S8192x8192x1_S8192x8192_n_0_n_n_0_2_1_wf : GatherDims.WF S524288 S8192x8192x1 S8192x8192 [] [0] [] [0] [] 2 ![1]
  dot_S64x8192_S8192x8192_S64x8192_1_0_0_1_n_n_wf : DotDims.WF S64x8192 S8192x8192 S64x8192 [1] [0] [0] [1] [] []

variable [Facts₀]

def gather_S524288_S8192x8192x1_S8192x8192_n_0_n_n_0_2_1 : GatherDims S524288 S8192x8192x1 S8192x8192 where
  offsetDims := []
  collapsedSliceDims := [0]
  operandBatchingDims := []
  startIndicesBatchingDims := []
  startIndexMap := [0]
  indexVectorDim := 2
  sliceSizes := ![1]
  wf := gather_S524288_S8192x8192x1_S8192x8192_n_0_n_n_0_2_1_wf
def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf

class Facts : Prop extends Facts₀ where

variable [Facts]
-- ==== Proof.HashedProduct.lean ====
/-
  The function both programs compute, stated once over literal shapes and extended reals.

  A layer with hashed weights has no stored weight matrix: entry (i, j) of the virtual matrix is the bucket
  `W[H(i, j)]` of one shared weight vector. Once those entries are looked up into a matrix `g` with
  `g[i, j] = W[H(i, j)]`, the layer's output for a batch of activations `a` is, for batch row `b` and
  output unit `i`,
      z[b, i] = ∑_k a[b, k] · g[i, k],
  the dot product of row `b` of `a` with row `i` of `g`. Nothing here depends on how `g` was looked up.
-/
import Idealize.ShloMosaic.PureOps.Ideal
import Idealize.ShloMosaic.Lib.ValueIdx

noncomputable section

open scoped BigOperators

namespace Cert.HashedProduct

open Idealize.ShloMosaic Idealize.ShloMosaic.ValueIdx

/-- `rowDots a g` at `(b, i)` is the dot product of row `b` of the activations with row `i` of the
    looked-up weight matrix: `∑_k a[b, k] · g[i, k]` over the 8192 input units. -/
def rowDots (a : (⟨2, ![64, 8192]⟩ : Shape).Idx → EReal) (g : (⟨2, ![8192, 8192]⟩ : Shape).Idx → EReal) :
    (⟨2, ![64, 8192]⟩ : Shape).Idx → EReal :=
  fun i => ∑ k : Fin 8192, a (ix2 (i 0) k) * g (ix2 (i 1) k)

/-- The same, read at explicit coordinates. -/
theorem rowDots_apply (a : (⟨2, ![64, 8192]⟩ : Shape).Idx → EReal) (g : (⟨2, ![8192, 8192]⟩ : Shape).Idx → EReal)
    (b : Fin 64) (i : Fin 8192) :
    rowDots a g (ix2 b i) = ∑ k : Fin 8192, a (ix2 b k) * g (ix2 i k) := rfl

end Cert.HashedProduct

end
-- ==== Proof.ReferenceRows.lean ====
/-
  The reference computes `rowDots`.

  The reference looks the buckets up into the matrix `g[i, j] = W[H(i, j)]`, transposes it to
  `V[j, i] = g[i, j]` and multiplies: `(a @ V)[b, i] = ∑_k a[b, k] · V[k, i] = ∑_k a[b, k] · g[i, k]`.
  The transpose only swaps the two coordinates at which `g` is read, so the sum is the dot product of
  row `b` of `a` with row `i` of `g`. The looked-up matrix is kept as it stands: which bucket an entry
  reads is the same on both sides of the claim and is never opened.
-/
import proofs.«423222_j38826504356572_3_alg».proof.Proof.Gen.ReferenceIdeal.Read
import proofs.«423222_j38826504356572_3_alg».proof.Proof.HashedProduct

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The product's left operand is read at `(b, k)`. -/
theorem lidx_eq (i : S64x8192.Idx) (k : Fin 8192) : lidx_main_v8 i k = ix2 (i 0) k :=
  funext fun a => Fin.ext (by match a with | ⟨0, _⟩ => rfl | ⟨1, _⟩ => rfl)

/-- Its right operand, the transposed matrix at `(k, i)`, is the looked-up matrix at `(i, k)`. -/
theorem ridx_eq (i : S64x8192.Idx) (k : Fin 8192) : idx_main_v7 (ridx_main_v8 i k) = ix2 (i 1) k :=
  funext fun a => Fin.ext (by match a with | ⟨0, _⟩ => rfl | ⟨1, _⟩ => rfl)

/-- The reference's result is `rowDots` of the activations and the looked-up matrix. -/
theorem result_eq (a : (⟨S64x8192, .f32⟩ : BufTy).Contents (Elt Ideal)) (W : (⟨S524288, .f32⟩ : BufTy).Contents (Elt Ideal))
    (h : (⟨S8192x8192, .i32⟩ : BufTy).Contents (Elt Ideal)) :
    val_main_v8 (F := Ideal) a W h = Cert.HashedProduct.rowDots a (val_main_v6 (F := Ideal) W h) := by
  funext i
  rw [val_main_v8_apply]
  unfold Cert.HashedProduct.rowDots
  refine Finset.sum_congr rfl fun k _ => ?_
  rw [val_main_v7_apply, lidx_eq, ridx_eq]
  rfl

end Cert.ReferenceIdeal.RefValue

end
-- ==== Proof.KernelPayload.lean ====
/-
  One block of the kernel's output, entry by entry.

  At a grid point the kernel holds all of the activations (64 rows of 8192) and a block of 1024 rows of the
  looked-up weight matrix (each row 8192 long), and stores their product contracted over the LAST axis of both:
  entry `(b, q)` of the stored 64 × 1024 block is `∑_k x[b, k] · y[q, k]`, row `b` of the activations against row `q`
  of the weight block. The product accumulates into a zero block, and `0 + s = s` on the extended reals, so nothing of
  the accumulator is left; the casts to the same shape around the operands are the identity.
-/
import proofs.«423222_j38826504356572_3_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Rows

open Cert.KernelIdeal Cert.KernelIdeal.Gen
open Idealize.ShloMosaic Idealize.ShloMosaic.TcCoe Idealize.ShloMosaic.ValueIdx

/-- The left operand's row is the output's row. -/
theorem lhs_row (i : S64x1024.Idx) (q : dot_S64x8192_S1024x8192_S64x1024_1_1_0_0_n_n.contr.Idx) :
    (dot_S64x8192_S1024x8192_S64x1024_1_1_0_0_n_n.lhsIdx i q 0).val = (i 0).val := by
  unfold DotDims.lhsIdx
  rw [dif_neg (show ¬(0 : Fin S64x8192.rank) ∈ dot_S64x8192_S1024x8192_S64x1024_1_1_0_0_n_n.lhsBatch by decide), dif_pos (show (0 : Fin S64x8192.rank) ∈ dot_S64x8192_S1024x8192_S64x1024_1_1_0_0_n_n.lhsNonContracting by decide)]
  rfl
/-- The left operand's column is the summation index. -/
theorem lhs_col (i : S64x1024.Idx) (q : dot_S64x8192_S1024x8192_S64x1024_1_1_0_0_n_n.contr.Idx) :
    (dot_S64x8192_S1024x8192_S64x1024_1_1_0_0_n_n.lhsIdx i q 1).val = (q ⟨0, by decide⟩).val :=
  dot_S64x8192_S1024x8192_S64x1024_1_1_0_0_n_n.lhsIdx_val_of_single rfl i q
/-- The right operand's row is the output's column. -/
theorem rhs_row (i : S64x1024.Idx) (q : dot_S64x8192_S1024x8192_S64x1024_1_1_0_0_n_n.contr.Idx) :
    (dot_S64x8192_S1024x8192_S64x1024_1_1_0_0_n_n.rhsIdx i q 0).val = (i 1).val := by
  unfold DotDims.rhsIdx
  rw [dif_neg (show ¬(0 : Fin S1024x8192.rank) ∈ dot_S64x8192_S1024x8192_S64x1024_1_1_0_0_n_n.rhsBatch by decide), dif_pos (show (0 : Fin S1024x8192.rank) ∈ dot_S64x8192_S1024x8192_S64x1024_1_1_0_0_n_n.rhsNonContracting by decide)]
  rfl
/-- The right operand's column is the summation index. -/
theorem rhs_col (i : S64x1024.Idx) (q : dot_S64x8192_S1024x8192_S64x1024_1_1_0_0_n_n.contr.Idx) :
    (dot_S64x8192_S1024x8192_S64x1024_1_1_0_0_n_n.rhsIdx i q 1).val = (q ⟨0, by decide⟩).val :=
  dot_S64x8192_S1024x8192_S64x1024_1_1_0_0_n_n.rhsIdx_val_of_single rfl i q

/-- Entry `(b, q)` of the stored block: row `b` of the activations against row `q` of the weight block. -/
theorem pay_apply (x : S64x8192.Idx → EReal) (y : S1024x8192.Idx → EReal) (b : Fin 64) (q : Fin 1024) :
    k0_pay1 (F := Ideal) x y (ix2 b q) = ∑ k : Fin 8192, x (ix2 b k) * y (ix2 q k) := by
  unfold k0_pay1
  simp only [shapeCast_self, matmul]
  rw [Ideal.matmul_constant_zero_apply, ← Equiv.sum_comp (contrEquiv1 dot_S64x8192_S1024x8192_S64x1024_1_1_0_0_n_n 8192 rfl rfl).symm]
  refine Finset.sum_congr rfl fun k _ => ?_
  have hk := contrEquiv1_symm_val dot_S64x8192_S1024x8192_S64x1024_1_1_0_0_n_n 8192 rfl rfl k
  have el : dot_S64x8192_S1024x8192_S64x1024_1_1_0_0_n_n.lhsIdx (ix2 b q) ((contrEquiv1 dot_S64x8192_S1024x8192_S64x1024_1_1_0_0_n_n 8192 rfl rfl).symm k) = ix2 b k := funext fun a => Fin.ext (by
    match a with
    | ⟨0, _⟩ => exact lhs_row _ _
    | ⟨1, _⟩ => exact (lhs_col _ _).trans hk)
  have er : dot_S64x8192_S1024x8192_S64x1024_1_1_0_0_n_n.rhsIdx (ix2 b q) ((contrEquiv1 dot_S64x8192_S1024x8192_S64x1024_1_1_0_0_n_n 8192 rfl rfl).symm k) = ix2 q k := funext fun a => Fin.ext (by
    match a with
    | ⟨0, _⟩ => exact rhs_row _ _
    | ⟨1, _⟩ => exact (rhs_col _ _).trans hk)
  rw [el, er]

end Cert.KernelIdeal.Rows

end
-- ==== Proof.KernelEntry.lean ====
/-
  What the kernel's one launch finds in its two operands.

  Before the launch the program narrows the bucket vector and the activations to a shorter float format and looks the
  buckets up: a negative bucket number `h` is first wrapped to `h + 524288`, then entry `(i, j)` of the operand is
  the (narrowed) bucket the wrapped number at `(i, j)` names. Over the extended reals a change of float format is
  the identity, so the launch finds the activations themselves, and the looked-up matrix `looked W h` of the
  buckets themselves.
-/
import proofs.«423222_j38826504356572_3_alg».proof.Proof.Gen.KernelIdeal.Frame
import Idealize.ShloMosaic.Lib.StableHlo.Run
import Idealize.ShloMosaic.PureOps.Ideal

noncomputable section

namespace Cert.KernelIdeal.Rows

open Cert.KernelIdeal Cert.KernelIdeal.Gen
open Idealize.ShloMosaic Idealize.ShloMosaic.TcCoe Idealize.SL.Sem

variable (m : (ℓ : Loc nD τ sig) → Buf (Elt Ideal) ℓ)

/-- The looked-up weight matrix: entry `(i, j)` is the bucket of `W` that the wrapped bucket number at `(i, j)` names. -/
def looked (W : (⟨S524288, .f32⟩ : BufTy).Contents (Elt Ideal)) (h : (⟨S8192x8192, .i32⟩ : BufTy).Contents (Elt Ideal)) :
    S8192x8192.Idx → EReal :=
  Host.gather gather_S524288_S8192x8192x1_S8192x8192_n_0_n_n_0_2_1 W
    (broadcastInDim S8192x8192x1 ![0, 1] bcast_S8192x8192_S8192x8192x1_0_1
      (select (cmpi .slt h (broadcastInDim S8192x8192 ![] bcast_S_S8192x8192 (constantI S_ 32 0#32)))
        (addi h (broadcastInDim S8192x8192 ![] bcast_S_S8192x8192 (constantI S_ 32 524288#32))) h))

/-- The launch finds the looked-up matrix of the buckets in its weight operand. -/
theorem entry_looked (c : Dev nD) :
    (V m c main_v7 : S8192x8192.Idx → EReal) = looked (m ((c : Thread nD τ).loc main_arg1)) (m ((c : Thread nD τ).loc main_arg2)) := by
  dsimp only [V, hostOps0]; after_results; rfl

/-- The launch finds the activations in its other operand. -/
theorem entry_acts (c : Dev nD) :
    (V m c main_v8 : S64x8192.Idx → EReal) = m ((c : Thread nD τ).loc main_arg0) := by
  dsimp only [V, hostOps0]; after_results; rfl

end Cert.KernelIdeal.Rows

end
-- ==== Proof.KernelRows.lean ====
/-
  The kernel's whole output array is `rowDots`.

  The launch runs over 8 grid points. Point `t` is handed all of the activations (block (0, 0) of an array it
  covers whole) and rows `1024·t … 1024·t + 1023` of the looked-up weight matrix (block (t, 0)), and writes back
  block (0, t) of the output: columns `1024·t … 1024·t + 1023` of all 64 rows. Entry `(b, q)` of what it writes is
  `∑_k a[b, k] · g[1024·t + q, k]` (the stored block, entry by entry), which is `rowDots a g` at `(b, 1024·t + q)`:
  each point writes its block of ONE whole-array function. The 8 column blocks tile the 8192 columns — column `i`
  lies in the block of point `i / 1024` — so after the run the array is that function everywhere.
-/
import proofs.«423222_j38826504356572_3_alg».proof.Proof.Gen.KernelIdeal.Value
import proofs.«423222_j38826504356572_3_alg».proof.Proof.KernelPayload
import proofs.«423222_j38826504356572_3_alg».proof.Proof.KernelEntry
import proofs.«423222_j38826504356572_3_alg».proof.Proof.HashedProduct
import Idealize.ShloMosaic.Lib.Pipeline.Value

noncomputable section

open scoped BigOperators

namespace Cert.KernelIdeal.Rows

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)
open Cert.HashedProduct (rowDots rowDots_apply)

variable (m : (ℓ : Loc nD τ sig) → Buf (Elt Ideal) ℓ) (ρ : Dev nD → PrngReg)

theorem hz : (![0, 0] : Fin 2 → Nat) = fun _ => 0 := funext fun a => by fin_cases a <;> rfl

/-- Which block each window is on at point `t`: the activations always on block (0, 0), the weight rows on block
    (t, 0), the output columns on block (0, t). -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- One point's block is its block of `rowDots`: if the point holds the activations `A` whole and rows
    `1024·n + q` of the weight matrix `G`, then entry `j` of the stored block is `rowDots A G` at row `j 0`,
    column `1024·n + j 1`. -/
theorem block_eq (A : S64x8192.Idx → EReal) (G : S8192x8192.Idx → EReal) (x : S64x8192.Idx → EReal) (y : S1024x8192.Idx → EReal)
    (n : Nat) (hx : x = A)
    (hy : ∀ (q : Fin 1024) (k : Fin 8192) (r : S8192x8192.Idx), (r 0).val = n * 1024 + q.val → (r 1).val = k.val → y (ix2 q k) = G r)
    (j : S64x1024.Idx) (i : S64x8192.Idx) (hi0 : (i 0).val = (j 0).val) (hi1 : (i 1).val = n * 1024 + (j 1).val) :
    k0_pay1 (F := Ideal) x y j = rowDots A G i := by
  obtain ⟨b, q, rfl⟩ : ∃ (b : Fin 64) (q : Fin 1024), j = ix2 b q := ⟨j 0, j 1, eq_ix2 j⟩
  obtain ⟨b', i', rfl⟩ : ∃ (b' : Fin 64) (i' : Fin 8192), i = ix2 b' i' := ⟨i 0, i 1, eq_ix2 i⟩
  obtain rfl : b' = b := Fin.ext hi0
  rw [pay_apply, rowDots_apply, hx]
  refine Finset.sum_congr rfl fun k _ => ?_
  rw [hy q k (ix2 i' k) hi1 rfl]

/-- The activations' block at any point is the whole array. -/
theorem blk_acts (c : Dev nD) (t : Fin cfg0.N) : (iblk m c 0 t : S64x8192.Idx → EReal) = V m c main_v8 := by
  obtain ⟨e00, e01, -⟩ := idx_facts t
  funext y
  show V m c main_v8 (((cfg0.win 0).blk t).view.emb y) = V m c main_v8 y
  refine congrArg (V m c main_v8) (funext fun a => Fin.ext ?_)
  match a with
  | ⟨0, _⟩ => show win0_0.index t (0 : Fin 2) * 64 + 1 * (y 0).val = (y 0).val; omega
  | ⟨1, _⟩ => show win0_0.index t (1 : Fin 2) * 8192 + 1 * (y 1).val = (y 1).val; omega

/-- The weight block at point `t` is rows `1024·t …` of the looked-up matrix. -/
theorem blk_wmat (c : Dev nD) (t : Fin cfg0.N) (q : Fin 1024) (k : Fin 8192) (r : S8192x8192.Idx)
    (hr0 : (r 0).val = t.val * 1024 + q.val) (hr1 : (r 1).val = k.val) :
    (iblk m c 1 t : S1024x8192.Idx → EReal) (ix2 q k) = V m c main_v7 r := by
  obtain ⟨-, -, e10, e11, -⟩ := idx_facts t
  show V m c main_v7 (((cfg0.win 1).blk t).view.emb (ix2 q k)) = V m c main_v7 r
  refine congrArg (V m c main_v7) (funext fun a => Fin.ext ?_)
  match a with
  | ⟨0, _⟩ => show win0_1.index t (0 : Fin 2) * 1024 + 1 * q.val = (r 0).val; omega
  | ⟨1, _⟩ => show win0_1.index t (1 : Fin 2) * 8192 + 1 * k.val = (r 1).val; omega

/-- WHAT POINT `t` WRITES BACK is block `t` of `rowDots` of the two operands as the launch finds them. -/
theorem flushed_eq (c : Dev nD) (t : Fin cfg0.N) :
    (dats m 0 c).flushed 2 t = ((cfg0.win 2).blk t).view.read (Elt Ideal) (rowDots (V m c main_v8) (V m c main_v7)) := by
  rw [flushed2]
  unfold out0_2
  rw [View.canon_unit_zero hz]
  simp only [View.ld_unit_zero (S := S64x8192) hz, View.ld_unit_zero (S := S1024x8192) hz]
  obtain ⟨-, -, -, -, e20, e21⟩ := idx_facts t
  funext j
  refine block_eq (V m c main_v8) (V m c main_v7) (iblk m c 0 t) (iblk m c 1 t) t.val (blk_acts m c t)
    (fun q k r h0 h1 => blk_wmat m c t q k r h0 h1) j (((cfg0.win 2).blk t).view.emb j) ?_ ?_
  · show win0_2.index t (0 : Fin 2) * 64 + 1 * (j 0).val = (j 0).val; omega
  · show win0_2.index t (1 : Fin 2) * 1024 + 1 * (j 1).val = t.val * 1024 + (j 1).val; omega

/-- An index of the array is in point `t`'s block iff each coordinate is in the block's range on its axis. -/
theorem mem_blk (t : Fin cfg0.N) (i : S64x8192.Idx) :
    i ∈ ((cfg0.win 2).blk t).view.set ↔ ∀ a : Fin 2, win0_2.index t a * S64x1024.size a ≤ (i a).val ∧ (i a).val < win0_2.index t a * S64x1024.size a + S64x1024.size a := by
  show i ∈ ((View.whole main_v9).slice (win0_2.rect t)).set ↔ _
  rw [View.set_slice_whole, Rect.mem_set_unit]
  exact Iff.rfl

/-- The 8 column blocks tile the array: column `i` is in the block of point `i / 1024`. -/
theorem cover (i : S64x8192.Idx) : ∃ t : Fin cfg0.N, (cfg0.win 2).flush t = true ∧ i ∈ ((cfg0.win 2).blk t).view.set := by
  have h0 : (i 0).val < 64 := (i 0).isLt
  have h1 : (i 1).val < 8192 := (i 1).isLt
  obtain ⟨t, ht⟩ : ∃ t : Fin cfg0.N, t.val = (i 1).val / 1024 := ⟨⟨(i 1).val / 1024, by rw [show cfg0.N = 8 from N_0]; omega⟩, rfl⟩
  obtain ⟨-, -, -, -, e20, e21⟩ := idx_facts t
  refine ⟨t, flush0_2 t, ?_⟩
  rw [mem_blk]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 1024 ≤ (i 1).val ∧ (i 1).val < win0_2.index t (1 : Fin 2) * 1024 + 1024; omega

/-- THE ARRAY after the run: `rowDots` of the two operands as the launch finds them. -/
theorem final (c : Dev nD) : (dats m 0 c).arrAt 2 cfg0.N = rowDots (V m c main_v8) (V m c main_v7) :=
  (dats m 0 c).arrAt_eq_of_cover 2 (rowDots (V m c main_v8) (V m c main_v7)) (fun t _ => flushed_eq m c t) cover

/-- The kernel's run, read: the result array is `rowDots` of the activations and the looked-up matrix of the
    arguments, and the arguments are unchanged. -/
theorem run : θ_run defs (onTc (τ := τ) (main (F := Ideal))) ⟨m, fun _ => 0, ρ⟩ fun r => ∀ c : Dev nD,
      r.2.mem ((c : Thread nD τ).loc main_v9)
        = rowDots (m ((c : Thread nD τ).loc main_arg0)) (looked (m ((c : Thread nD τ).loc main_arg1)) (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by rw [entry_acts, entry_looked])), (h c).2⟩)
    (run_blocks m ρ)

end Cert.KernelIdeal.Rows

end
-- ==== Proof.lean ====
/-
  A layer with hashed weights, `z[b, i] = ∑_j a[b, j] · W[H(i, j)]`: the kernel against its reference.

  Both programs first look the shared bucket vector `W` up through the table `H` into the matrix
  `g[i, j] = W[H(i, j)]` (a negative bucket number wrapped once by the table's length, then read clamped) —
  the reference on the buckets as given, the kernel on buckets narrowed to a shorter float format, which over the
  extended reals is the identity: the two matrices are ONE matrix, and which bucket an entry reads is never opened.
  The reference then transposes `g` and multiplies, `(a @ gᵀ)[b, i] = ∑_k a[b, k] · g[i, k]`. The kernel walks the
  8192 output units in 8 blocks of 1024; at each block it multiplies all of `a` by the block's 1024 rows of `g`,
  contracting the last axis of both into a zero accumulator, and writes columns `1024·t …` of the output. Entry
  by entry both are `rowDots a g`: the same products summed over the same index, so no law beyond `0 + s = s` is
  used and finiteness of the inputs is never needed.

  The modules: `HashedProduct` states `rowDots`; `ReferenceRows` shows the reference's result is it;
  `KernelPayload` reads one stored block entry by entry, `KernelEntry` what the launch finds in its operands,
  `KernelRows` that the 8 column blocks tile the output and the array after the run is `rowDots`. Here: the two
  looked-up matrices are one, and the five claims.
-/
import proofs.«423222_j38826504356572_3_alg».proof.Defs
import proofs.«423222_j38826504356572_3_alg».proof.Proof.Gen.Kernel
import proofs.«423222_j38826504356572_3_alg».proof.Proof.Gen.Kernel.Skeleton
import proofs.«423222_j38826504356572_3_alg».proof.Proof.Gen.Kernel.Launch
import proofs.«423222_j38826504356572_3_alg».proof.Proof.Gen.Kernel.Points
import proofs.«423222_j38826504356572_3_alg».proof.Proof.Gen.Kernel.Frame
import proofs.«423222_j38826504356572_3_alg».proof.Proof.Gen.KernelIdeal
import proofs.«423222_j38826504356572_3_alg».proof.Proof.Gen.KernelIdeal.Skeleton
import proofs.«423222_j38826504356572_3_alg».proof.Proof.Gen.KernelIdeal.Launch
import proofs.«423222_j38826504356572_3_alg».proof.Proof.Gen.KernelIdeal.Points
import proofs.«423222_j38826504356572_3_alg».proof.Proof.Gen.KernelIdeal.Frame
import proofs.«423222_j38826504356572_3_alg».proof.Proof.Gen.ReferenceIdeal
import proofs.«423222_j38826504356572_3_alg».proof.Proof.Gen.KernelIdeal.Value
import proofs.«423222_j38826504356572_3_alg».proof.Proof.Gen.ReferenceIdeal.Run
import proofs.«423222_j38826504356572_3_alg».proof.Proof.Gen.ReferenceIdeal.Read
import proofs.«423222_j38826504356572_3_alg».proof.Proof.Gen.Pre_finite_inputs
import proofs.«423222_j38826504356572_3_alg».proof.Proof.HashedProduct
import proofs.«423222_j38826504356572_3_alg».proof.Proof.ReferenceRows
import proofs.«423222_j38826504356572_3_alg».proof.Proof.KernelRows
import Idealize.ShloMosaic.Adequacy
import Idealize.ShloMosaic.Init

noncomputable section

namespace Cert.Proof

open Idealize.ShloMosaic Idealize.ShloMosaic.TcCoe Idealize.SL.Sem

/-- The kernel's looked-up matrix is the reference's: the same wrap of a negative bucket number, the same clamped
    read of the same bucket vector — the kernel's narrowing of the buckets is the identity over the extended reals. -/
theorem looked_eq (W : (⟨Cert.ReferenceIdeal.S524288, .f32⟩ : BufTy).Contents (Elt Ideal))
    (h : (⟨Cert.ReferenceIdeal.S8192x8192, .i32⟩ : BufTy).Contents (Elt Ideal)) :
    Cert.KernelIdeal.Rows.looked W h = Cert.ReferenceIdeal.Read.val_main_v6 (F := Ideal) W h := rfl

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the three arguments both runs end with the result array at `rowDots` of the
    activations and the one looked-up matrix. -/
theorem algebraic : Cert.algebraic_KernelIdeal_ReferenceIdeal := by
  intro m ρ m' ρ' _ hagree
  refine ⟨_, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq,
    (hagree c).1, (hagree c).2.1, (hagree c).2.2, ← looked_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
